-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) (main_arg2 : FVec F S8x2048x1024 .f32) (main_arg3 : IVec S8 32) (main_arg4 : IVec S8 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8 : Shape := ⟨1, ![8]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1 : Shape := ⟨1, ![1]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 2
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .bf16⟩
  | .hbm, ⟨4, _⟩ => ⟨S8x2048x1024, .bf16⟩
  | .hbm, ⟨5, _⟩ => ⟨S8x2048x1024, .bf16⟩
  | .hbm, ⟨6, _⟩ => ⟨S8x2048x1024, .f32⟩
  | .hbm, ⟨7, _⟩ => ⟨S8x2048x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x2048, .f32⟩
  | .local _ .vmem, ⟨9, _⟩ => ⟨S1x256x2048, .f32⟩
  | .local _ .smem, ⟨0, _⟩ => ⟨S8, .i32⟩
  | .local _ .smem, ⟨1, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .bf16 = 32 ∨ (Rect.block (s := S8x2048x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev spec0_0 : Pipeline.WinSpec sig grid0.rank :=
  Pipeline.WinSpec.ofSpec (Memref.whole main_v0) S1x256x1024.size reads0_0 false false 2 stage0_0 sem0_0 nbuf0_0 hstage0_0

abbrev spec0_1 : Pipeline.WinSpec sig grid0.rank :=
  Pipeline.WinSpec.ofSpec (Memref.whole main_v1) S1x2048x1024.size reads0_1 false false 2 stage0_1 sem0_1 nbuf0_1 hstage0_1

abbrev spec0_2 : Pipeline.WinSpec sig grid0.rank :=
  Pipeline.WinSpec.ofSpec (Memref.whole main_v2) S1x2048x1024.size reads0_2 false false 2 stage0_2 sem0_2 nbuf0_2 hstage0_2

abbrev spec0_3 : Pipeline.WinSpec sig grid0.rank :=
  Pipeline.WinSpec.ofSpec (Memref.whole main_v3_0) S1x256x1024.size reads0_3 true false 2 stage0_3 sem0_3 nbuf0_3 hstage0_3

abbrev spec0_4 : Pipeline.WinSpec sig grid0.rank :=
  Pipeline.WinSpec.ofSpec (Memref.whole main_v3_1) S1x256x2048.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8x2048x1024 : Shape := ⟨3, ![8, 2048, 1024]⟩
abbrev S8 : Shape := ⟨1, ![8]⟩
abbrev S8x2048x2048 : Shape := ⟨3, ![8, 2048, 2048]⟩
abbrev S_ : Shape := ⟨0, ![]⟩
abbrev S2048 : Shape := ⟨1, ![2048]⟩
abbrev S1x2048x1 : Shape := ⟨3, ![1, 2048, 1]⟩
abbrev S8x1x1 : Shape := ⟨3, ![8, 1, 1]⟩
abbrev S8x2048x1 : Shape := ⟨3, ![8, 2048, 1]⟩
abbrev S1x1x2048 : Shape := ⟨3, ![1, 1, 2048]⟩
abbrev S8x1x2048 : Shape := ⟨3, ![8, 1, 2048]⟩
abbrev S1x2048x2048 : Shape := ⟨3, ![1, 2048, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8, .i32⟩
  | .hbm, ⟨4, _⟩ => ⟨S8, .i32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S2048, .i32⟩
  | .hbm, ⟨10, _⟩ => ⟨S1x2048x1, .i32⟩
  | .hbm, ⟨11, _⟩ => ⟨S8x1x1, .i32⟩
  | .hbm, ⟨12, _⟩ => ⟨S8x2048x1, .i32⟩
  | .hbm, ⟨13, _⟩ => ⟨S8x2048x1, .i32⟩
  | .hbm, ⟨14, _⟩ => ⟨S8x2048x1, .i1⟩
  | .hbm, ⟨15, _⟩ => ⟨S2048, .i32⟩
  | .hbm, ⟨16, _⟩ => ⟨S1x1x2048, .i32⟩
  | .hbm, ⟨17, _⟩ => ⟨S8x1x1, .i32⟩
  | .hbm, ⟨18, _⟩ => ⟨S8x1x2048, .i32⟩
  | .hbm, ⟨19, _⟩ => ⟨S8x1x2048, .i32⟩
  | .hbm, ⟨20, _⟩ => ⟨S8x1x2048, .i1⟩
  | .hbm, ⟨21, _⟩ => ⟨S8x2048x2048, .i1⟩
  | .hbm, ⟨22, _⟩ => ⟨S8x2048x2048, .i1⟩
  | .hbm, ⟨23, _⟩ => ⟨S8x2048x2048, .i1⟩
  | .hbm, ⟨24, _⟩ => ⟨S2048, .i32⟩
  | .hbm, ⟨25, _⟩ => ⟨S1x1x2048, .i32⟩
  | .hbm, ⟨26, _⟩ => ⟨S2048, .i32⟩
  | .hbm, ⟨27, _⟩ => ⟨S1x2048x1, .i32⟩
  | .hbm, ⟨28, _⟩ => ⟨S1x2048x2048, .i32⟩
  | .hbm, ⟨29, _⟩ => ⟨S1x2048x2048, .i32⟩
  | .hbm, ⟨30, _⟩ => ⟨S1x2048x2048, .i1⟩
  | .hbm, ⟨31, _⟩ => ⟨S8x2048x2048, .i1⟩
  | .hbm, ⟨32, _⟩ => ⟨S8x2048x2048, .i1⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .i1⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_call1_v0 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_call2_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S2048_S1x2048x1_1 : S2048.BroadcastsInDim S1x2048x1 (![1] : Fin 1 → Fin S1x2048x1.rank)
  bcast_S8_S8x1x1_0 : S8.BroadcastsInDim S8x1x1 (![0] : Fin 1 → Fin S8x1x1.rank)
  bcast_S1x2048x1_S8x2048x1_0_1_2 : S1x2048x1.BroadcastsInDim S8x2048x1 (![0, 1, 2] : Fin 3 → Fin S8x2048x1.rank)
  bcast_S8x1x1_S8x2048x1_0_1_2 : S8x1x1.BroadcastsInDim S8x2048x1 (![0, 1, 2] : Fin 3 → Fin S8x2048x1.rank)
  bcast_S2048_S1x1x2048_2 : S2048.BroadcastsInDim S1x1x2048 (![2] : Fin 1 → Fin S1x1x2048.rank)
  bcast_S1x1x2048_S8x1x2048_0_1_2 : S1x1x2048.BroadcastsInDim S8x1x2048 (![0, 1, 2] : Fin 3 → Fin S8x1x2048.rank)
  bcast_S8x1x1_S8x1x2048_0_1_2 : S8x1x1.BroadcastsInDim S8x1x2048 (![0, 1, 2] : Fin 3 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S1x1x2048_S1x2048x2048_0_1_2 : S1x1x2048.BroadcastsInDim S1x2048x2048 (![0, 1, 2] : Fin 3 → Fin S1x2048x2048.rank)
  bcast_S1x2048x1_S1x2048x2048_0_1_2 : S1x2048x1.BroadcastsInDim S1x2048x2048 (![0, 1, 2] : Fin 3 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelIdealBlocks.lean ====
/-
  What one grid point leaves in the two output blocks, as values of the blocks it was given.

  At grid point (b, qi) the body reads the batch's two length words from the tables, the query block (256 rows), the
  key block and the value block (2048 rows each), and stores two blocks whole: the weights block, the quotient
  `k0_pay1` of the exponentials `k0_pay5` by the divisors `k0_pay6` laid out as [1, 256, 2048]; and the context block,
  the product of that quotient with the value block laid out as [1, 256, 1024]. Each output block is covered by its
  one store, so what is read back from it is that store's payload; the length words are the tables' entries at b.
-/
import proofs.«408480_j80796924772504_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]

/-- The batch a grid point works on, as a number below 8. -/
abbrev batchOf (i : grid0.Coords) : Fin 8 := ⟨(i 0).val, (i 0).isLt⟩

theorem zero_offsets : (![0, 0, 0] : Fin 3 → Nat) = fun _ => 0 := funext fun a => by fin_cases a <;> rfl

/-- The batch coordinate, a number below 8, survives the round trip through a 32-bit word. -/
theorem batch_word_toNat (i : grid0.Coords) : BitVec.toNat (Scalar.indexCast (BitVec.ofNat 32 (i 0).val)) = (i 0).val := by
  have h : (i 0).val < 8 := (i 0).isLt
  simp [Scalar.indexCast]
  omega

/-- The query-length word the body loads at a point: the table's entry at the point's batch. -/
theorem qlen_word (c : Dev nD) (i : grid0.Coords) (xt0 : TbBuf0 (F := F) c tbM0_0) (h) (h') :
    View.ld (View.read (Elt F) (View.whole main_arg3) xt0)
        (Rect.unit ![BitVec.toNat (Scalar.indexCast (BitVec.ofNat 32 (i 0).val))] ![1] h) (Shape.Idx.first h')
      = xt0 (ix1 (batchOf i)) := by
  rw [View.read_whole]
  refine congrArg xt0 (funext fun a => Fin.ext ?_)
  match a with
  | ⟨0, _⟩ =>
    show BitVec.toNat (Scalar.indexCast (BitVec.ofNat 32 (i 0).val)) + 1 * 0 = (i 0).val
    rw [batch_word_toNat, Nat.mul_zero, Nat.add_zero]

/-- The key-length word likewise. -/
theorem klen_word (c : Dev nD) (i : grid0.Coords) (xt1 : TbBuf0 (F := F) c tbM0_1) (h) (h') :
    View.ld (View.read (Elt F) (View.whole main_arg4) xt1)
        (Rect.unit ![BitVec.toNat (Scalar.indexCast (BitVec.ofNat 32 (i 0).val))] ![1] h) (Shape.Idx.first h')
      = xt1 (ix1 (batchOf i)) := by
  rw [View.read_whole]
  refine congrArg xt1 (funext fun a => Fin.ext ?_)
  match a with
  | ⟨0, _⟩ =>
    show BitVec.toNat (Scalar.indexCast (BitVec.ofNat 32 (i 0).val)) + 1 * 0 = (i 0).val
    rw [batch_word_toNat, Nat.mul_zero, Nat.add_zero]

/-- The weights block after the body: the quotient of the exponentials by the divisors, as a [1, 256, 2048] block. -/
theorem weights_block (c : Dev nD) (i : grid0.Coords) (arg4 : Memref sig .tc .vmem S1x256x1024 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x256x1024 .f32) (harg7 : arg7.IsWhole) (arg8 : Memref sig .tc .vmem S1x256x2048 .f32) (harg8 : arg8.IsWhole)
    (x0 : Vec F S1x256x1024 .bf16) (x1 : Vec F S1x2048x1024 .bf16) (x2 : Vec F S1x2048x1024 .bf16) (xt0 : TbBuf0 (F := F) c tbM0_0) (xt1 : TbBuf0 (F := F) c tbM0_1) :
    out0_A_4 c i arg4 harg4 arg5 harg5 arg6 harg6 arg7 harg7 arg8 harg8 x0 x1 x2 xt0 xt1
      = k0_pay2 (k0_pay5 i (xt0 (ix1 (batchOf i))) (xt1 (ix1 (batchOf i))) x0 x1)
          (k0_pay6 i (xt0 (ix1 (batchOf i))) (xt1 (ix1 (batchOf i))) x0 x1) := by
  unfold out0_A_4
  rw [View.read_writes_eq_canon _ _ _ (cover0_A_4 c i arg4 harg4 arg5 harg5 arg6 harg6 arg7 harg7 arg8 harg8 x0 x1 x2 xt0 xt1)]
  unfold kernelRun0_A
  dsimp only
  sl_unfold_words
  rw [View.canon_unit_zero zero_offsets]
  simp only [View.readAt_eq_ld, harg4.read_unread, harg5.read_unread, View.ld_unit_zero (S := S1x256x1024) zero_offsets,
    View.ld_unit_zero (S := S1x2048x1024) zero_offsets]
  exact congrArg₂ (fun a b => k0_pay2 (k0_pay5 i a b x0 x1) (k0_pay6 i a b x0 x1)) (qlen_word c i xt0 _ _) (klen_word c i xt1 _ _)

/-- The context block after the body: that quotient times the value block, as a [1, 256, 1024] block. -/
theorem context_block (c : Dev nD) (i : grid0.Coords) (arg4 : Memref sig .tc .vmem S1x256x1024 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x256x1024 .f32) (harg7 : arg7.IsWhole) (arg8 : Memref sig .tc .vmem S1x256x2048 .f32) (harg8 : arg8.IsWhole)
    (x0 : Vec F S1x256x1024 .bf16) (x1 : Vec F S1x2048x1024 .bf16) (x2 : Vec F S1x2048x1024 .bf16) (xt0 : TbBuf0 (F := F) c tbM0_0) (xt1 : TbBuf0 (F := F) c tbM0_1) :
    out0_A_3 c i arg4 harg4 arg5 harg5 arg6 harg6 arg7 harg7 arg8 harg8 x0 x1 x2 xt0 xt1
      = k0_pay3 (k0_pay4 x2) (k0_pay5 i (xt0 (ix1 (batchOf i))) (xt1 (ix1 (batchOf i))) x0 x1)
          (k0_pay6 i (xt0 (ix1 (batchOf i))) (xt1 (ix1 (batchOf i))) x0 x1) := by
  unfold out0_A_3
  rw [View.read_writes_eq_canon _ _ _ (cover0_A_3 c i arg4 harg4 arg5 harg5 arg6 harg6 arg7 harg7 arg8 harg8 x0 x1 x2 xt0 xt1)]
  unfold kernelRun0_A
  dsimp only
  sl_unfold_words
  rw [View.canon_unit_zero zero_offsets]
  simp only [View.readAt_eq_ld, harg4.read_unread, harg5.read_unread, harg6.read_unread, View.ld_unit_zero (S := S1x256x1024) zero_offsets,
    View.ld_unit_zero (S := S1x2048x1024) zero_offsets]
  exact congrArg₂ (fun a b => k0_pay3 (k0_pay4 x2) (k0_pay5 i a b x0 x1) (k0_pay6 i a b x0 x1)) (qlen_word c i xt0 _ _) (klen_word c i xt1 _ _)

end Cert.KernelIdeal.Blocks

end
-- ==== Proof.MaskedSoftmax.lean ====
/-
  Masked, scaled dot-product attention, as one function of the five argument arrays.

  For a batch `b`, a query row `r` and a key column `c` the score is the inner product of query row `(b, r)` with key
  row `(b, c)` over the 1024 features, divided by 32 (the square root of the feature count). A column is VISIBLE to a
  row when the row is below the batch's query length, the column is below its key length, and the column is not after
  the row (the causal triangle); lengths are compared as signed 32-bit words, a row or column number being the word of
  that number. An invisible score is replaced by the most negative finite f32, the row's maximum is taken from minus
  infinity, the exponentials of the differences are kept on the visible columns and are zero elsewhere, and each is
  divided by the row's sum of them, or by one when that sum is zero (a row that sees nothing). The context is the
  product of those weights with the value rows.

  A row of the softmax is stated here over an abstract row of visibility bits and scaled scores, so that a block of
  256 rows and the whole array of 2048 rows are instances of one definition. The single arithmetic law used between the
  two programs is also here: on every extended real, the product with the f32 word of 1/32 is the quotient by the f32
  word of 32.
-/
import Idealize.ShloMosaic.PureOps.Ideal
import Idealize.ShloMosaic.PureOps.Ideal.Laws
import Idealize.ShloMosaic.Lib.ValueIdx

noncomputable section

namespace Cert.MaskedSoftmax

open Idealize.ShloMosaic Idealize.ShloMosaic.ValueIdx

/-! ## The scale: the word of 1/32 against the word of 32 -/

/-- The f32 word `0x42000000` denotes the real 32. -/
theorem ofBits_thirtyTwo : Ideal.ofBits .f32 0x42000000#32 = ((32 : ℝ) : EReal) := by
  simp [Ideal.ofBits, Ideal.ieee, -EReal.coe_mul]; norm_num

/-- The f32 word `0x3D000000` denotes the real 1/32, exactly (a power of two). -/
theorem ofBits_oneOverThirtyTwo : Ideal.ofBits .f32 0x3D000000#32 = ((1 / 32 : ℝ) : EReal) := by
  simp [Ideal.ofBits, Ideal.ieee, -EReal.coe_mul]; norm_num

/-- Scaling by the word of 1/32 is dividing by the word of 32, at the infinities too. -/
theorem mul_scale_eq_div (x : EReal) :
    x * Ideal.ofBits .f32 0x3D000000#32 = Ideal.div x (Ideal.ofBits .f32 0x42000000#32) := by
  rw [ofBits_thirtyTwo, ofBits_oneOverThirtyTwo, Ideal.div_coe (by norm_num : (32 : ℝ) ≠ 0)]

/-! ## One row -/

section Row

variable {n : ℕ} (vis : Fin n → BitVec 1) (sc : Fin n → EReal)

/-- The masked score: the scaled score where the column is visible, the most negative finite f32 elsewhere. -/
def logit (c : Fin n) : EReal := Scalar.select (vis c) (sc c) (Ideal.ofBits .f32 0xFF7FFFFF#32)

/-- The row's maximum, taken from minus infinity (the word `0xFF800000`). -/
def rowMax : EReal := (Finset.univ : Finset (Fin n)).fold max (Ideal.ofBits .f32 0xFF800000#32) (logit vis sc)

/-- The exponential of the masked score's distance below the maximum, kept on the visible columns only. -/
def expo (c : Fin n) : EReal :=
  Scalar.select (vis c) (Ideal.exp (logit vis sc c - rowMax vis sc)) (Ideal.ofBits .f32 0x00000000#32)

/-- The row's sum of them. -/
def denom : EReal := ∑ c : Fin n, expo vis sc c

/-- The divisor: the sum, or one when the sum is zero. -/
def safeDenom : EReal :=
  Scalar.select (Ideal.cmp .oeq (denom vis sc) (Ideal.ofBits .f32 0x00000000#32)) (Ideal.ofBits .f32 0x3F800000#32)
    (denom vis sc)

/-- The attention weight of column `c`. -/
def weight (c : Fin n) : EReal := Ideal.div (expo vis sc c) (safeDenom vis sc)

end Row

/-! ## The arrays -/

abbrev Sqkv : Shape := ⟨3, ![8, 2048, 1024]⟩
abbrev Sw : Shape := ⟨3, ![8, 2048, 2048]⟩
abbrev Slen : Shape := ⟨1, ![8]⟩

section Arrays

variable (q k v : Sqkv.Idx → EReal) (ql kl : Slen.Idx → BitVec 32)

/-- The inner product of query row `(b, r)` and key row `(b, c)`. -/
def score (b : Fin 8) (r c : Fin 2048) : EReal := ∑ d : Fin 1024, q (ix3 b r d) * k (ix3 b c d)

/-- The scaled score: the inner product divided by 32. -/
def scaled (b : Fin 8) (r c : Fin 2048) : EReal := Ideal.div (score q k b r c) (Ideal.ofBits .f32 0x42000000#32)

/-- Column `c` is visible to row `r` of batch `b`. -/
def visible (b : Fin 8) (r c : Fin 2048) : BitVec 1 :=
  IntOp.andi
    (IntOp.andi (IntOp.cmpi .slt (BitVec.ofNat 32 r.val) (ql (ix1 b))) (IntOp.cmpi .slt (BitVec.ofNat 32 c.val) (kl (ix1 b))))
    (IntOp.cmpi .sle (BitVec.ofNat 32 c.val) (BitVec.ofNat 32 r.val))

/-- The attention weights, an `[8, 2048, 2048]` array. -/
def weights : Sw.Idx → EReal := fun i =>
  weight (visible ql kl (i 0) (i 1)) (scaled q k (i 0) (i 1)) (i 2)

/-- The context, an `[8, 2048, 1024]` array: the weights times the value rows. -/
def context : Sqkv.Idx → EReal := fun i =>
  ∑ c : Fin 2048, weights q k ql kl (ix3 (i 0) (i 1) c) * v (ix3 (i 0) c (i 2))

end Arrays

end Cert.MaskedSoftmax

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.LibLaneMax.lean ====
/-
  A maximum over the last axis, read at a row (jnp.max(x, axis=1) of an [a, b] array).

  On the extended reals a lane maximum of an [a, b] array along its second axis, taken from the neutral accumulator
  (minus infinity), is at row p the fold of max over the row's b entries, from the value the accumulator's word
  denotes: the order in which the lanes are combined is gone. It is the maximum's sibling of the lane sum read as a sum
  over the row.
-/
import Idealize.ShloMosaic.PureOps.Ideal.Laws
import Idealize.ShloMosaic.Lib.ValueIdx

noncomputable section

namespace Idealize.ShloMosaic.LaneMax

open Idealize.ShloMosaic Idealize.ShloMosaic.ValueIdx

/-- On the extended reals a lane maximum of an `[a, b]` array along its second axis, from the neutral accumulator,
    reads at row `p` as the fold of `max` over `d` of the array at `(p, d)`. -/
theorem laneMax_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun d => v (ix2 p d)) := by
  rw [Ideal.multiReduction_maximumf_single]
  refine Finset.fold_congr fun d _ => congrArg v (funext fun c => Fin.ext ?_)
  match c with
  | ⟨0, _⟩ => rfl
  | ⟨1, _⟩ => rfl

end Idealize.ShloMosaic.LaneMax

end
-- ==== Proof.SoftmaxTile.lean ====
/-
  The masked softmax of an [a, b] tile, row by row.

  A tile of scores with a tile of visibility bits goes through: the invisible scores replaced by the most negative
  finite f32; the maximum of each row taken along the lanes from minus infinity and kept as a column; the exponentials
  of the differences, zero where invisible; their sum along the lanes kept as a column, replaced by one where it is
  zero; the quotient. Read at (p, c) this is the weight of column c in the row of the definitions, for the p-th row
  of the two tiles: each reduction reads as a fold or a sum over the row, each re-laying at the evident index.
-/
import Idealize.ShloMosaic.PureOps.Ideal.Laws
import Idealize.ShloMosaic.Lib.ValueIdx
import Idealize.ShloMosaic.Lib.Pipeline.Value
import proofs.«408480_j80796924772504_1_alg».proof.Proof.MaskedSoftmax
import proofs.«408480_j80796924772504_1_alg».proof.Proof.LibKeepdimsColumn
import proofs.«408480_j80796924772504_1_alg».proof.Proof.LibLaneMax

noncomputable section

namespace Cert.MaskedSoftmax

open Idealize.ShloMosaic Idealize.ShloMosaic.ValueIdx Idealize.ShloMosaic.KeepdimsColumn Idealize.ShloMosaic.LaneMax

section Tile

variable {a b : ℕ} (vis : IVec ⟨2, ![a, b]⟩ 1) (sc : FVec Ideal ⟨2, ![a, b]⟩ .f32)
  (hred : Shape.Reduces ⟨2, ![a, b]⟩ [1] ⟨1, ![a]⟩) (hcast : (⟨1, ![a]⟩ : Shape).ShapeCasts ⟨2, ![a, 1]⟩)
  (hbc : (⟨2, ![a, 1]⟩ : Shape).Broadcasts ⟨2, ![a, b]⟩)
  (hφ : FKind.Formats .f32) (hmax : (0xFF800000#32 : BitVec 32) = FKind.maximumf.neutral .f32 hφ)
  (hadd : (0x00000000#32 : BitVec 32) = FKind.add.neutral .f32 hφ)

/-- The masked scores of the tile. -/
def tileLogit : FVec Ideal ⟨2, ![a, b]⟩ .f32 :=
  select vis sc (broadcast ⟨2, ![a, b]⟩ (Scalar.ofBits .f32 0xFF7FFFFF#32))

/-- The exponentials of the tile, zero where invisible. -/
def tileExpo : FVec Ideal ⟨2, ![a, b]⟩ .f32 :=
  select vis
    (exp (subf (tileLogit vis sc)
      (broadcastTo ⟨2, ![a, b]⟩
        (shapeCast ⟨2, ![a, 1]⟩ (multiReduction .maximumf [1] ⟨1, ![a]⟩ (tileLogit vis sc) 0xFF800000#32 hred hφ hmax) hcast) hbc)))
    (broadcast ⟨2, ![a, b]⟩ (Scalar.ofBits .f32 0x00000000#32))

/-- The divisors of the tile, a column: each row's sum, or one where the sum is zero. -/
def tileSafeDenom : FVec Ideal ⟨2, ![a, 1]⟩ .f32 :=
  select
    (cmpf .oeq
      (shapeCast ⟨2, ![a, 1]⟩ (multiReduction .add [1] ⟨1, ![a]⟩ (tileExpo vis sc hred hcast hbc hφ hmax) 0x00000000#32 hred hφ hadd) hcast)
      (broadcast ⟨2, ![a, 1]⟩ (Scalar.ofBits .f32 0x00000000#32)))
    (broadcast ⟨2, ![a, 1]⟩ (Scalar.ofBits .f32 0x3F800000#32))
    (shapeCast ⟨2, ![a, 1]⟩ (multiReduction .add [1] ⟨1, ![a]⟩ (tileExpo vis sc hred hcast hbc hφ hmax) 0x00000000#32 hred hφ hadd) hcast)

/-- The weights of the tile. -/
def tileWeight : FVec Ideal ⟨2, ![a, b]⟩ .f32 :=
  divf (tileExpo vis sc hred hcast hbc hφ hmax)
    (broadcastTo ⟨2, ![a, b]⟩ (tileSafeDenom vis sc hred hcast hbc hφ hmax hadd) hbc)

theorem tileLogit_apply (p : Fin a) (c : Fin b) :
    tileLogit vis sc (ix2 p c) = logit (fun c => vis (ix2 p c)) (fun c => sc (ix2 p c)) c := rfl

theorem tileExpo_apply (p : Fin a) (c : Fin b) :
    tileExpo vis sc hred hcast hbc hφ hmax (ix2 p c) = expo (fun c => vis (ix2 p c)) (fun c => sc (ix2 p c)) c := by
  unfold tileExpo expo
  rw [select_apply]
  show Scalar.select (vis (ix2 p c)) (Ideal.exp (tileLogit vis sc (ix2 p c) - broadcastTo ⟨2, ![a, b]⟩ _ hbc (ix2 p c))) _ = _
  rw [broadcastTo_a1_ab_apply, shapeCast_a_a1_apply, laneMax_ab_apply]
  rfl

theorem tileSafeDenom_apply (p : Fin a) :
    tileSafeDenom vis sc hred hcast hbc hφ hmax hadd (ix2 p (0 : Fin 1))
      = safeDenom (fun c => vis (ix2 p c)) (fun c => sc (ix2 p c)) := by
  unfold tileSafeDenom safeDenom
  rw [select_apply, cmpf_apply, shapeCast_a_a1_apply, laneSum_ab_apply]
  simp only [tileExpo_apply]
  rfl

theorem tileWeight_apply (p : Fin a) (c : Fin b) :
    tileWeight vis sc hred hcast hbc hφ hmax hadd (ix2 p c) = weight (fun c => vis (ix2 p c)) (fun c => sc (ix2 p c)) c := by
  unfold tileWeight weight
  rw [divf_apply, broadcastTo_a1_ab_apply, tileExpo_apply, tileSafeDenom_apply]

end Tile

end Cert.MaskedSoftmax

end
-- ==== Proof.LibTransposedRhsDot.lean ====
/-
  A MATRIX PRODUCT WHOSE RIGHT OPERAND IS STORED TRANSPOSED, read at an index over the extended reals.

  The einsum "de,ne->dn" — `L : [M, K]` times `R : [N, K]`, both contracted on their LAST axis, the result `[M, N]` —
  is what a kernel writes when it multiplies by a matrix it holds row-by-row (a one-hot match matrix built node by
  node, a weight kept `[out, in]`). Its dimension numbers are the library's `DotDims.transposedRhs M K N`
  (`<[1], [1], [0], [0], …>`). At the ideal instance a `tpu.matmul` at these dimension numbers into a zero accumulator,
  read at `(r, c)`, is the plain sum over `k` of `L[r, k] · R[c, k]` (`matmul_zero_apply`): the contraction index is one
  coordinate (`ValueIdx.contrEquiv1`), the left operand's index at it is `(r, k)` and the right operand's `(c, k)`
  (`lhsIdx_eq`, `rhsIdx_eq`). A program's own generated record with these six lists is this record (`rfl`: the
  well-formedness field is a proposition).
-/
import Idealize.ShloMosaic.PureOps.Ideal.Laws
import Idealize.ShloMosaic.Lib.ValueIdx

noncomputable section

open scoped BigOperators

namespace Idealize.ShloMosaic.TransposedRhsDot

open Idealize.ShloMosaic Idealize.ShloMosaic.ValueIdx

variable {M K N : Nat}

/-- On the left operand's row axis the index is the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- On the right operand's row axis the index is the result's COLUMN. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- On the left operand's last axis the index is the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single (cl := 1) rfl j k

/-- On the right operand's last axis too. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single (cr := 1) rfl j k

/-- The contraction positions are the numbers below `K`. -/
abbrev contrEquiv : (DotDims.transposedRhs M K N).contr.Idx ≃ Fin K :=
  contrEquiv1 (DotDims.transposedRhs M K N) K rfl rfl

/-- The left operand's index at result `(r, c)` and contraction position `k` is `(r, k)`. -/
theorem lhsIdx_eq (r : Fin M) (c : Fin N) (k : Fin K) :
    (DotDims.transposedRhs M K N).lhsIdx (ix2 r c) ((contrEquiv (M := M) (N := N)).symm k) = ix2 r k := by
  funext a
  refine Fin.ext ?_
  match a with
  | ⟨0, _⟩ => exact lhs_row _ _
  | ⟨1, _⟩ => exact (lhs_col _ _).trans (contrEquiv1_symm_val _ K rfl rfl k)

/-- The right operand's is `(c, k)`. -/
theorem rhsIdx_eq (r : Fin M) (c : Fin N) (k : Fin K) :
    (DotDims.transposedRhs M K N).rhsIdx (ix2 r c) ((contrEquiv (M := M) (N := N)).symm k) = ix2 c k := by
  funext a
  refine Fin.ext ?_
  match a with
  | ⟨0, _⟩ => exact rhs_row _ _
  | ⟨1, _⟩ => exact (rhs_col _ _).trans (contrEquiv1_symm_val _ K rfl rfl k)

/-- THE PRODUCT READ AT `(r, c)`: into a zero accumulator, the sum over `k` of `L[r, k] · R[c, k]`. -/
theorem matmul_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv (M := M) (K := K) (N := N)).symm]
  refine Finset.sum_congr rfl fun k _ => ?_
  rw [lhsIdx_eq, rhsIdx_eq]

end Idealize.ShloMosaic.TransposedRhsDot

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KernelPayload.lean ====
/-
  The body's arithmetic at one grid point, read entry by entry over the extended reals.

  The divisors `k0_pay6`, the exponentials `k0_pay5` and their quotient `k0_pay1` are the masked softmax of a tile of
  256 rows by 2048 columns: its scores are the products of the query block's rows with the key block's rows (a matrix
  product contracting the last axis of both), scaled by the word of 1/32; its visibility bits compare the row number
  qi * 256 + p and the column number c, as 32-bit words, with the two length words and with each other. The context
  payload `k0_pay3` is the product of that quotient with the value block.
-/
import proofs.«408480_j80796924772504_1_alg».proof.Proof.Gen.KernelIdeal.Skeleton
import proofs.«408480_j80796924772504_1_alg».proof.Proof.SoftmaxTile
import proofs.«408480_j80796924772504_1_alg».proof.Proof.LibTransposedRhsDot
import proofs.«408480_j80796924772504_1_alg».proof.Proof.LibPlainDot
import Idealize.ShloMosaic.Lib.Pipeline.Value
import Idealize.ShloMosaic.Lib.ValueIdx

set_option maxRecDepth 16384

noncomputable section

namespace Cert.KernelIdeal.Payload

open Cert.KernelIdeal Cert.KernelIdeal.Gen Idealize.ShloMosaic Idealize.ShloMosaic.ValueIdx
open Cert.MaskedSoftmax

variable (i : grid0.Coords) (w0 w1 : Elt Ideal .i32) (x0 : Vec Ideal S1x256x1024 .bf16) (x1 x2 : Vec Ideal S1x2048x1024 .bf16)

/-- The row numbers of the tile, as words: qi * 256 plus the row inside the tile. -/
def rowWords : IVec S256x2048 32 :=
  addi (broadcast S256x2048 (Scalar.muli (BitVec.ofNat 32 (i 1).val) 256#32)) (iota .tc S256x2048 32 [0] Facts₀.iota_S256x2048_d0_w32)

/-- The visibility bits of the tile. -/
def visTile : IVec S256x2048 1 :=
  andi
    (andi (cmpi .slt (rowWords i) (broadcast S256x2048 w0))
      (cmpi .slt (iota .tc S256x2048 32 [1] Facts₀.iota_S256x2048_d1_w32) (broadcast S256x2048 w1)))
    (cmpi .sle (iota .tc S256x2048 32 [1] Facts₀.iota_S256x2048_d1_w32) (rowWords i))

/-- The scaled scores of the tile. -/
def scoreTile : FVec Ideal S256x2048 .f32 :=
  mulf
    (matmul dot_S256x1024_S2048x1024_S256x2048_1_1_0_0_n_n none
      (shapeCast S256x1024 x0 Facts₀.shapeCasts_S1x256x1024_S256x1024 : FVec Ideal S256x1024 .bf16)
      (shapeCast S2048x1024 x1 Facts₀.shapeCasts_S1x2048x1024_S2048x1024 : FVec Ideal S2048x1024 .bf16) (constant S256x2048 .f32 0x00000000#32))
    (broadcast S256x2048 (Scalar.ofBits .f32 0x3D000000#32))

/-- The exponentials payload is the tile's. -/
theorem pay5_eq : k0_pay5 i w0 w1 x0 x1
    = tileExpo (visTile i w0 w1) (scoreTile x0 x1) Facts₀.reduces_S256x2048_S256 Facts₀.shapeCasts_S256_S256x1 Facts₀.broadcasts_S256x1_S256x2048
        (.inl rfl) rfl := rfl

/-- The quotient payload is the tile's weights. -/
theorem pay1_eq : k0_pay1 (k0_pay5 i w0 w1 x0 x1) (k0_pay6 i w0 w1 x0 x1)
    = tileWeight (visTile i w0 w1) (scoreTile x0 x1) Facts₀.reduces_S256x2048_S256 Facts₀.shapeCasts_S256_S256x1 Facts₀.broadcasts_S256x1_S256x2048
        (.inl rfl) rfl rfl := rfl

/-- A row number of the tile as a word. -/
theorem rowWords_apply (p : Fin 256) (c : Fin 2048) :
    rowWords i (ix2 p c) = BitVec.ofNat 32 ((i 1).val * 256 + p.val) := by
  unfold rowWords
  show IntOp.addi (IntOp.muli (BitVec.ofNat 32 (i 1).val) 256#32) (iota .tc S256x2048 32 [0] Facts₀.iota_S256x2048_d0_w32 (ix2 p c)) = _
  rw [iota_single_apply]
  show BitVec.ofNat 32 (i 1).val * BitVec.ofNat 32 256 + BitVec.ofNat 32 p.val = _
  rw [BitVec.ofNat_add, BitVec.ofNat_mul]

/-- A visibility bit of the tile. -/
theorem visTile_apply (p : Fin 256) (c : Fin 2048) :
    visTile i w0 w1 (ix2 p c)
      = IntOp.andi
          (IntOp.andi (IntOp.cmpi .slt (BitVec.ofNat 32 ((i 1).val * 256 + p.val)) w0) (IntOp.cmpi .slt (BitVec.ofNat 32 c.val) w1))
          (IntOp.cmpi .sle (BitVec.ofNat 32 c.val) (BitVec.ofNat 32 ((i 1).val * 256 + p.val))) := by
  unfold visTile
  show IntOp.andi (IntOp.andi (IntOp.cmpi .slt (rowWords i (ix2 p c)) w0)
      (IntOp.cmpi .slt (iota .tc S256x2048 32 [1] Facts₀.iota_S256x2048_d1_w32 (ix2 p c)) w1))
    (IntOp.cmpi .sle (iota .tc S256x2048 32 [1] Facts₀.iota_S256x2048_d1_w32 (ix2 p c)) (rowWords i (ix2 p c))) = _
  rw [rowWords_apply, iota_single_apply]

/-- A scaled score of the tile: the inner product of query row p and key row c of the blocks, times the word of 1/32. -/
theorem scoreTile_apply (p : Fin 256) (c : Fin 2048) :
    scoreTile x0 x1 (ix2 p c)
      = (∑ d : Fin 1024, x0 (ix3 (0 : Fin 1) p d) * x1 (ix3 (0 : Fin 1) c d)) * Ideal.ofBits .f32 0x3D000000#32 := by
  unfold scoreTile
  rw [mulf_apply]
  refine congrArg (· * _) ((TransposedRhsDot.matmul_zero_apply (M := 256) (K := 1024) (N := 2048) none _ _ p c).trans (Finset.sum_congr rfl fun d _ => ?_))
  rw [shapeCast_dropUnit_apply (n := 2) ![256, 1024], shapeCast_dropUnit_apply (n := 2) ![2048, 1024]]
  refine congr (congrArg _ (congrArg x0 ?_)) (congrArg x1 ?_) <;>
  · funext a
    match a with
    | ⟨0, _⟩ => rfl
    | ⟨1, _⟩ => rfl
    | ⟨2, _⟩ => rfl

/-- The context payload at (0, p, j): the tile's weights of row p against column j of the value block. -/
theorem pay3_apply (p : Fin 256) (j : Fin 1024) :
    k0_pay3 (k0_pay4 x2) (k0_pay5 i w0 w1 x0 x1) (k0_pay6 i w0 w1 x0 x1) (ix3 (0 : Fin 1) p j)
      = ∑ c : Fin 2048, k0_pay1 (k0_pay5 i w0 w1 x0 x1) (k0_pay6 i w0 w1 x0 x1) (ix2 p c) * x2 (ix3 (0 : Fin 1) c j) := by
  unfold k0_pay3 k0_pay4
  rw [shapeCast_addUnit_apply (n := 2) ![256, 1024],
    show (fun a : Fin 2 => (ix3 (0 : Fin 1) p j) a.succ) = ix2 p j from
      funext fun a => match a with | ⟨0, _⟩ => rfl | ⟨1, _⟩ => rfl]
  refine (PlainDot.matmul_zero_apply 256 2048 1024 none _ _ p j).trans ?_
  refine Finset.sum_congr rfl fun c _ => ?_
  rw [truncf_apply, shapeCast_dropUnit_apply (n := 2) ![2048, 1024]]
  refine congrArg (_ * ·) (congrArg x2 ?_)
  funext a
  match a with
  | ⟨0, _⟩ => rfl
  | ⟨1, _⟩ => rfl
  | ⟨2, _⟩ => rfl

end Cert.KernelIdeal.Payload

end
-- ==== Proof.KernelValue.lean ====
/-
  The two result arrays after the kernel's run, as the attention of the definitions.

  Grid point t = (b, qi) is handed query rows qi * 256 .. qi * 256 + 255 of batch b (the query array narrowed to bf16,
  the same extended reals), all key rows and all value rows of batch b, and the batch's two length words; it writes
  back rows qi * 256 .. of batch b of the weights and of the context. So what it writes back is that block of the
  weights and of the context of the definitions: the tile's visibility bits are the definitions' at row
  qi * 256 + p, its scaled scores are the definitions' (the product with the word of 1/32 against the quotient by the
  word of 32), and its context entries sum the same products. The 64 blocks tile each array: row r of batch b is in
  the block of the point with coordinates (b, r / 256).
-/
import proofs.«408480_j80796924772504_1_alg».proof.Proof.KernelIdealBlocks
import proofs.«408480_j80796924772504_1_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Attention

open Cert.KernelIdeal Cert.KernelIdeal.Gen Cert.KernelIdeal.Blocks Idealize.ShloMosaic.ValueIdx Cert.MaskedSoftmax

variable (m : (ℓ : Loc nD τ sig) → Buf (Elt Ideal) ℓ) (ρ : Dev nD → PrngReg)

/-- No index map reads a table, so the tables' side condition is empty. -/
theorem ok : Ok m := trivial

/-- The three float argument arrays as launched. -/
abbrev argQ (c : Dev nD) : Sqkv.Idx → EReal := m ((c : Thread nD τ).loc main_arg0)
abbrev argK (c : Dev nD) : Sqkv.Idx → EReal := m ((c : Thread nD τ).loc main_arg1)
abbrev argV (c : Dev nD) : Sqkv.Idx → EReal := m ((c : Thread nD τ).loc main_arg2)
/-- The two length arrays as launched. -/
abbrev argQl (c : Dev nD) : Slen.Idx → BitVec 32 := m ((c : Thread nD τ).loc main_arg3)
abbrev argKl (c : Dev nD) : Slen.Idx → BitVec 32 := m ((c : Thread nD τ).loc main_arg4)

/-- The row of the arrays that row p of point i's blocks is. -/
abbrev rowOf (i : grid0.Coords) (p : Fin 256) : Fin 2048 :=
  ⟨(i 1).val * 256 + p.val, by have h : (i 1).val < 8 := (i 1).isLt; have := p.isLt; omega⟩

/-! ## One point's blocks, over variables of the literal types -/

section Point

variable (i : grid0.Coords) (b : Fin 8) (q k v : Sqkv.Idx → EReal) (ql kl : Slen.Idx → BitVec 32)
  (x0 : Vec Ideal S1x256x1024 .bf16) (x1 x2 : Vec Ideal S1x2048x1024 .bf16)

/-- The tile's weights at (p, c) are the definitions' at row qi * 256 + p of batch b, given what the blocks hold. -/
theorem tile_weight (hq : ∀ (p : Fin 256) (d : Fin 1024), x0 (ix3 (0 : Fin 1) p d) = q (ix3 b (rowOf i p) d))
    (hk : ∀ (c : Fin 2048) (d : Fin 1024), x1 (ix3 (0 : Fin 1) c d) = k (ix3 b c d)) (p : Fin 256) (c : Fin 2048) :
    k0_pay1 (k0_pay5 i (ql (ix1 b)) (kl (ix1 b)) x0 x1) (k0_pay6 i (ql (ix1 b)) (kl (ix1 b)) x0 x1) (ix2 p c)
      = weights q k ql kl (ix3 b (rowOf i p) c) := by
  refine ((congrFun (Payload.pay1_eq i (ql (ix1 b)) (kl (ix1 b)) x0 x1) (ix2 p c)).trans
    (tileWeight_apply (Payload.visTile i (ql (ix1 b)) (kl (ix1 b))) (Payload.scoreTile x0 x1) _ _ _ _ _ _ p c)).trans ?_
  unfold weights
  refine congr (congrArg₂ weight (funext fun c' => ?_) (funext fun c' => ?_)) rfl
  · rw [Payload.visTile_apply]; rfl
  · rw [Payload.scoreTile_apply, mul_scale_eq_div]
    unfold scaled score
    refine congrArg (Ideal.div · _) (Finset.sum_congr rfl fun d _ => ?_)
    rw [hq, hk]

/-- The weights block the point stores, entry by entry. -/
theorem weights_at (hq : ∀ (p : Fin 256) (d : Fin 1024), x0 (ix3 (0 : Fin 1) p d) = q (ix3 b (rowOf i p) d))
    (hk : ∀ (c : Fin 2048) (d : Fin 1024), x1 (ix3 (0 : Fin 1) c d) = k (ix3 b c d)) (y : S1x256x2048.Idx) :
    k0_pay2 (k0_pay5 i (ql (ix1 b)) (kl (ix1 b)) x0 x1) (k0_pay6 i (ql (ix1 b)) (kl (ix1 b)) x0 x1) y
      = weights q k ql kl (ix3 b (rowOf i (y 1)) (y 2)) := by
  obtain ⟨u, p, c, rfl⟩ : ∃ (u : Fin 1) (p : Fin 256) (c : Fin 2048), y = ix3 u p c := ⟨y 0, y 1, y 2, eq_ix3 y⟩
  unfold k0_pay2
  rw [shapeCast_addUnit_apply (n := 2) ![256, 2048]]
  refine Eq.trans (congrArg _ (funext fun a => ?_)) (tile_weight i b q k ql kl x0 x1 hq hk p c)
  match a with
  | ⟨0, _⟩ => rfl
  | ⟨1, _⟩ => rfl

/-- The context block the point stores, entry by entry. -/
theorem context_at (hq : ∀ (p : Fin 256) (d : Fin 1024), x0 (ix3 (0 : Fin 1) p d) = q (ix3 b (rowOf i p) d))
    (hk : ∀ (c : Fin 2048) (d : Fin 1024), x1 (ix3 (0 : Fin 1) c d) = k (ix3 b c d))
    (hv : ∀ (c : Fin 2048) (j : Fin 1024), x2 (ix3 (0 : Fin 1) c j) = v (ix3 b c j)) (y : S1x256x1024.Idx) :
    k0_pay3 (k0_pay4 x2) (k0_pay5 i (ql (ix1 b)) (kl (ix1 b)) x0 x1) (k0_pay6 i (ql (ix1 b)) (kl (ix1 b)) x0 x1) y
      = context q k v ql kl (ix3 b (rowOf i (y 1)) (y 2)) := by
  obtain ⟨u, p, j, rfl⟩ : ∃ (u : Fin 1) (p : Fin 256) (j : Fin 1024), y = ix3 u p j := ⟨y 0, y 1, y 2, eq_ix3 y⟩
  obtain rfl : u = 0 := Subsingleton.elim _ _
  rw [Payload.pay3_apply]
  unfold context
  refine Finset.sum_congr rfl fun c _ => ?_
  rw [tile_weight i b q k ql kl x0 x1 hq hk p c, hv]

end Point

/-! ## The blocks a point is handed -/

/-- A grid coordinate, a number below 8, survives the round trip through a 32-bit word. -/
theorem coord_word (i : grid0.Coords) (a : Fin 2) : (BitVec.ofNat 32 (i a).val).toNat = (i a).val := by
  have h : (i a).val < 8 := by
    match a with
    | ⟨0, _⟩ => exact (i 0).isLt
    | ⟨1, _⟩ => exact (i 1).isLt
  rw [BitVec.toNat_ofNat]
  exact Nat.mod_eq_of_lt (by omega)

/-- The region finds the three float arrays narrowed to bf16: the same extended reals. -/
theorem narrowed_q (c : Dev nD) : (V m c main_v0 : Sqkv.Idx → EReal) = argQ m c := by
  dsimp only [Gen.V, Gen.hostOps0]; after_results; rfl
theorem narrowed_k (c : Dev nD) : (V m c main_v1 : Sqkv.Idx → EReal) = argK m c := by
  dsimp only [Gen.V, Gen.hostOps0]; after_results; rfl
theorem narrowed_v (c : Dev nD) : (V m c main_v2 : Sqkv.Idx → EReal) = argV m c := by
  dsimp only [Gen.V, Gen.hostOps0]; after_results; rfl

/-- The query block at point t: rows qi * 256 .. of batch b. -/
theorem query_block (c : Dev nD) (t : Fin (cfgM m (ok m)).N) (p : Fin 256) (d : Fin 1024) :
    (iblk m (ok m) c 0 t : Vec Ideal S1x256x1024 .bf16) (ix3 (0 : Fin 1) p d)
      = argQ m c (ix3 (batchOf (grid0.coords t)) (rowOf (grid0.coords t) p) d) := by
  refine (congrFun (narrowed_q m c) _).trans (congrArg (argQ m c) (funext fun a => Fin.ext ?_))
  match a with
  | ⟨0, _⟩ =>
    show (BitVec.ofNat 32 (grid0.coords t 0).val).toNat * 1 + 1 * 0 = (grid0.coords t 0).val
    rw [coord_word]; omega
  | ⟨1, _⟩ =>
    show (BitVec.ofNat 32 (grid0.coords t 1).val).toNat * 256 + 1 * p.val = (grid0.coords t 1).val * 256 + p.val
    rw [coord_word]; omega
  | ⟨2, _⟩ =>
    show 0 * 1024 + 1 * d.val = d.val
    omega

/-- The key block at point t: all rows of batch b. -/
theorem key_block (c : Dev nD) (t : Fin (cfgM m (ok m)).N) (r : Fin 2048) (d : Fin 1024) :
    (iblk m (ok m) c 1 t : Vec Ideal S1x2048x1024 .bf16) (ix3 (0 : Fin 1) r d)
      = argK m c (ix3 (batchOf (grid0.coords t)) r d) := by
  refine (congrFun (narrowed_k m c) _).trans (congrArg (argK m c) (funext fun a => Fin.ext ?_))
  match a with
  | ⟨0, _⟩ =>
    show (BitVec.ofNat 32 (grid0.coords t 0).val).toNat * 1 + 1 * 0 = (grid0.coords t 0).val
    rw [coord_word]; omega
  | ⟨1, _⟩ =>
    show 0 * 2048 + 1 * r.val = r.val
    omega
  | ⟨2, _⟩ =>
    show 0 * 1024 + 1 * d.val = d.val
    omega

/-- The value block at point t: all rows of batch b. -/
theorem value_block (c : Dev nD) (t : Fin (cfgM m (ok m)).N) (r : Fin 2048) (j : Fin 1024) :
    (iblk m (ok m) c 2 t : Vec Ideal S1x2048x1024 .bf16) (ix3 (0 : Fin 1) r j)
      = argV m c (ix3 (batchOf (grid0.coords t)) r j) := by
  refine (congrFun (narrowed_v m c) _).trans (congrArg (argV m c) (funext fun a => Fin.ext ?_))
  match a with
  | ⟨0, _⟩ =>
    show (BitVec.ofNat 32 (grid0.coords t 0).val).toNat * 1 + 1 * 0 = (grid0.coords t 0).val
    rw [coord_word]; omega
  | ⟨1, _⟩ =>
    show 0 * 2048 + 1 * r.val = r.val
    omega
  | ⟨2, _⟩ =>
    show 0 * 1024 + 1 * j.val = j.val
    omega

/-- The tables the region reads are the two length arrays as launched. -/
theorem table_q (c : Dev nD) : (tbl m 0 : Slen.Idx → BitVec 32) = argQl m c := by
  obtain rfl : c = 0 := Subsingleton.elim _ _
  exact V_main_arg3 m 0
theorem table_k (c : Dev nD) : (tbl m 1 : Slen.Idx → BitVec 32) = argKl m c := by
  obtain rfl : c = 0 := Subsingleton.elim _ _
  exact V_main_arg4 m 0

/-! ## What each point writes back -/

/-- The weights of the definitions, of the arrays as launched (the tables as the region reads them). -/
abbrev W (c : Dev nD) : Sw.Idx → EReal := weights (argQ m c) (argK m c) (tbl m 0) (tbl m 1)
/-- The context of the definitions likewise. -/
abbrev C (c : Dev nD) : Sqkv.Idx → EReal := context (argQ m c) (argK m c) (argV m c) (tbl m 0) (tbl m 1)

/-- Point t writes back its block of the weights. -/
theorem flushed_weights (c : Dev nD) (t : Fin (cfgM m (ok m)).N) :
    (dats m (ok m) 0 c).flushed 4 t = (((cfgM m (ok m)).win 4).blk t).view.read (Elt Ideal) (W m c) := by
  show ((cfgM m (ok m)).win 4).cut (grid0.coords t) ((dats m (ok m) 0 c).after 4 t) = _
  rw [after0_4]
  unfold outsAt0
  dsimp only
  refine (congrArg (fun X => ((cfgM m (ok m)).win 4).cut (grid0.coords t) X)
    (weights_block c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (iblk m (ok m) c 0 t) (iblk m (ok m) c 1 t) (iblk m (ok m) c 2 t) (tbl m 0) (tbl m 1))).trans ?_
  funext y
  refine (weights_at (grid0.coords t) (batchOf (grid0.coords t)) (argQ m c) (argK m c) (tbl m 0) (tbl m 1) (iblk m (ok m) c 0 t) (iblk m (ok m) c 1 t)
    (query_block m c t) (key_block m c t) (((cfgM m (ok m)).win 4).xinj (grid0.coords t) y)).trans ?_
  show W m c _ = W m c ((((cfgM m (ok m)).win 4).blk t).view.emb y)
  refine congrArg (W m c) (funext fun a => Fin.ext ?_)
  match a with
  | ⟨0, _⟩ =>
    show (grid0.coords t 0).val = (BitVec.ofNat 32 (grid0.coords t 0).val).toNat * 1 + 1 * (y (0 : Fin 3)).val
    have hy : (y (0 : Fin 3)).val < 1 := (y (0 : Fin 3)).isLt
    rw [coord_word]; omega
  | ⟨1, _⟩ =>
    show (grid0.coords t 1).val * 256 + (y (1 : Fin 3)).val = (BitVec.ofNat 32 (grid0.coords t 1).val).toNat * 256 + 1 * (y (1 : Fin 3)).val
    rw [coord_word]; omega
  | ⟨2, _⟩ =>
    show (y (2 : Fin 3)).val = 0 * 2048 + 1 * (y (2 : Fin 3)).val
    omega

/-- Point t writes back its block of the context. -/
theorem flushed_context (c : Dev nD) (t : Fin (cfgM m (ok m)).N) :
    (dats m (ok m) 0 c).flushed 3 t = (((cfgM m (ok m)).win 3).blk t).view.read (Elt Ideal) (C m c) := by
  show ((cfgM m (ok m)).win 3).cut (grid0.coords t) ((dats m (ok m) 0 c).after 3 t) = _
  rw [after0_3]
  unfold outsAt0
  dsimp only
  refine (congrArg (fun X => ((cfgM m (ok m)).win 3).cut (grid0.coords t) X)
    (context_block c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (iblk m (ok m) c 0 t) (iblk m (ok m) c 1 t) (iblk m (ok m) c 2 t) (tbl m 0) (tbl m 1))).trans ?_
  funext y
  refine (context_at (grid0.coords t) (batchOf (grid0.coords t)) (argQ m c) (argK m c) (argV m c) (tbl m 0) (tbl m 1) (iblk m (ok m) c 0 t) (iblk m (ok m) c 1 t) (iblk m (ok m) c 2 t)
    (query_block m c t) (key_block m c t) (value_block m c t) (((cfgM m (ok m)).win 3).xinj (grid0.coords t) y)).trans ?_
  show C m c _ = C m c ((((cfgM m (ok m)).win 3).blk t).view.emb y)
  refine congrArg (C m c) (funext fun a => Fin.ext ?_)
  match a with
  | ⟨0, _⟩ =>
    show (grid0.coords t 0).val = (BitVec.ofNat 32 (grid0.coords t 0).val).toNat * 1 + 1 * (y (0 : Fin 3)).val
    have hy : (y (0 : Fin 3)).val < 1 := (y (0 : Fin 3)).isLt
    rw [coord_word]; omega
  | ⟨1, _⟩ =>
    show (grid0.coords t 1).val * 256 + (y (1 : Fin 3)).val = (BitVec.ofNat 32 (grid0.coords t 1).val).toNat * 256 + 1 * (y (1 : Fin 3)).val
    rw [coord_word]; omega
  | ⟨2, _⟩ =>
    show (y (2 : Fin 3)).val = 0 * 1024 + 1 * (y (2 : Fin 3)).val
    omega

/-! ## The blocks tile the arrays -/

/-- Every pair of block coordinates is some point's. -/
theorem point_of : ∀ (b qi : Fin 8), ∃ t : Fin grid0.N, (grid0.coords t 0).val = b.val ∧ (grid0.coords t 1).val = qi.val := by
  decide +kernel

/-- An index of the weights array is in point t's block iff each coordinate is in the block's range on its axis. -/
theorem mem_weights_block (t : Fin (cfgM m (ok m)).N) (i : Sw.Idx) :
    i ∈ (((cfgM m (ok m)).win 4).blk t).view.set
      ↔ ∀ a : Fin 3, ((cfgM m (ok m)).win 4).index t a * S1x256x2048.size a ≤ (i a).val
          ∧ (i a).val < ((cfgM m (ok m)).win 4).index t a * S1x256x2048.size a + S1x256x2048.size a := by
  show i ∈ ((View.whole main_v3_1).slice (((cfgM m (ok m)).win 4).rect t)).set ↔ _
  exact (iff_of_eq (congrArg (i ∈ ·) (View.set_slice_whole main_v3_1 (((cfgM m (ok m)).win 4).rect t)))).trans Rect.mem_set_unit

/-- The same for the context array. -/
theorem mem_context_block (t : Fin (cfgM m (ok m)).N) (i : Sqkv.Idx) :
    i ∈ (((cfgM m (ok m)).win 3).blk t).view.set
      ↔ ∀ a : Fin 3, ((cfgM m (ok m)).win 3).index t a * S1x256x1024.size a ≤ (i a).val
          ∧ (i a).val < ((cfgM m (ok m)).win 3).index t a * S1x256x1024.size a + S1x256x1024.size a := by
  show i ∈ ((View.whole main_v3_0).slice (((cfgM m (ok m)).win 3).rect t)).set ↔ _
  exact (iff_of_eq (congrArg (i ∈ ·) (View.set_slice_whole main_v3_0 (((cfgM m (ok m)).win 3).rect t)))).trans Rect.mem_set_unit

/-- Every index of the weights array is in the block of the point (its batch, its row / 256). -/
theorem weights_cover (i : Sw.Idx) :
    ∃ t : Fin (cfgM m (ok m)).N, ((cfgM m (ok m)).win 4).flush t = true ∧ i ∈ (((cfgM m (ok m)).win 4).blk t).view.set := by
  have h0 : (i 0).val < 8 := (i 0).isLt
  have h1 : (i 1).val < 2048 := (i 1).isLt
  have h2 : (i 2).val < 2048 := (i 2).isLt
  obtain ⟨t, ht0, ht1⟩ := point_of ⟨(i 0).val, h0⟩ ⟨(i 1).val / 256, by omega⟩
  have e0 : (grid0.coords t 0).val = (i 0).val := ht0
  have e1 : (grid0.coords t 1).val = (i 1).val / 256 := ht1
  refine ⟨t, flush0_4 (adm m (ok m)) t, ?_⟩
  rw [mem_weights_block]
  intro a
  match a with
  | ⟨0, _⟩ =>
    show (BitVec.ofNat 32 (grid0.coords t 0).val).toNat * 1 ≤ (i 0).val
      ∧ (i 0).val < (BitVec.ofNat 32 (grid0.coords t 0).val).toNat * 1 + 1
    rw [coord_word, e0]; omega
  | ⟨1, _⟩ =>
    show (BitVec.ofNat 32 (grid0.coords t 1).val).toNat * 256 ≤ (i 1).val
      ∧ (i 1).val < (BitVec.ofNat 32 (grid0.coords t 1).val).toNat * 256 + 256
    rw [coord_word, e1]; omega
  | ⟨2, _⟩ =>
    show 0 * 2048 ≤ (i 2).val ∧ (i 2).val < 0 * 2048 + 2048
    omega

/-- Every index of the context array likewise. -/
theorem context_cover (i : Sqkv.Idx) :
    ∃ t : Fin (cfgM m (ok m)).N, ((cfgM m (ok m)).win 3).flush t = true ∧ i ∈ (((cfgM m (ok m)).win 3).blk t).view.set := by
  have h0 : (i 0).val < 8 := (i 0).isLt
  have h1 : (i 1).val < 2048 := (i 1).isLt
  have h2 : (i 2).val < 1024 := (i 2).isLt
  obtain ⟨t, ht0, ht1⟩ := point_of ⟨(i 0).val, h0⟩ ⟨(i 1).val / 256, by omega⟩
  have e0 : (grid0.coords t 0).val = (i 0).val := ht0
  have e1 : (grid0.coords t 1).val = (i 1).val / 256 := ht1
  refine ⟨t, flush0_3 (adm m (ok m)) t, ?_⟩
  rw [mem_context_block]
  intro a
  match a with
  | ⟨0, _⟩ =>
    show (BitVec.ofNat 32 (grid0.coords t 0).val).toNat * 1 ≤ (i 0).val
      ∧ (i 0).val < (BitVec.ofNat 32 (grid0.coords t 0).val).toNat * 1 + 1
    rw [coord_word, e0]; omega
  | ⟨1, _⟩ =>
    show (BitVec.ofNat 32 (grid0.coords t 1).val).toNat * 256 ≤ (i 1).val
      ∧ (i 1).val < (BitVec.ofNat 32 (grid0.coords t 1).val).toNat * 256 + 256
    rw [coord_word, e1]; omega
  | ⟨2, _⟩ =>
    show 0 * 1024 ≤ (i 2).val ∧ (i 2).val < 0 * 1024 + 1024
    omega

/-! ## The arrays after the run -/

/-- The weights array ends holding the weights of the definitions. -/
theorem final_weights (c : Dev nD) : (dats m (ok m) 0 c).arrAt 4 (cfgM m (ok m)).N = W m c :=
  (dats m (ok m) 0 c).arrAt_eq_of_cover 4 (W m c) (fun t _ => flushed_weights m c t) (weights_cover m)

/-- The context array ends holding the context of the definitions. -/
theorem final_context (c : Dev nD) : (dats m (ok m) 0 c).arrAt 3 (cfgM m (ok m)).N = C m c :=
  (dats m (ok m) 0 c).arrAt_eq_of_cover 3 (C m c) (fun t _ => flushed_context m c t) (context_cover m)

/-- The tables the region read are the length arrays as launched. -/
theorem W_eq (c : Dev nD) : W m c = weights (argQ m c) (argK m c) (argQl m c) (argKl m c) := by
  rw [← table_q m c, ← table_k m c]
theorem C_eq (c : Dev nD) : C m c = context (argQ m c) (argK m c) (argV m c) (argQl m c) (argKl m c) := by
  rw [← table_q m c, ← table_k m c]

/-- THE RUN, READ: the two result arrays at the context and the weights of the definitions, of the five argument
    arrays as launched; the arguments unchanged. -/
theorem run : θ_run defs (onTc (τ := τ) (main (F := Ideal))) ⟨m, fun _ => 0, ρ⟩ fun r => ∀ c : Dev nD,
      r.2.mem ((c : Thread nD τ).loc main_v3_0) = context (argQ m c) (argK m c) (argV m c) (argQl m c) (argKl m c)
      ∧ r.2.mem ((c : Thread nD τ).loc main_v3_1) = weights (argQ m c) (argK m c) (argQl m c) (argKl m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(((h c).1 3).trans (final_context m c)).trans (C_eq m c),
        (((h c).1 4).trans (final_weights m c)).trans (W_eq m c),
        ((h c).2 main_arg0 (by decide : main_arg0 ∈ Pipeline.restRefs sig spec0)).trans (V_main_arg0 m c),
        ((h c).2 main_arg1 (by decide : main_arg1 ∈ Pipeline.restRefs sig spec0)).trans (V_main_arg1 m c),
        ((h c).2 main_arg2 (by decide : main_arg2 ∈ Pipeline.restRefs sig spec0)).trans (V_main_arg2 m c),
        ((h c).2 main_arg3 (by decide : main_arg3 ∈ Pipeline.restRefs sig spec0)).trans (V_main_arg3 m c),
        ((h c).2 main_arg4 (by decide : main_arg4 ∈ Pipeline.restRefs sig spec0)).trans (V_main_arg4 m c)⟩)
    (run_main m ρ (ok m))

end Cert.KernelIdeal.Attention

end
-- ==== Proof.ReferenceRows.lean ====
/-
  The reference, stage by stage, is the masked attention of the definitions.

  Read at (b, r, c): the three compares of the mask are the visibility bit; the batched product of queries and keys,
  divided by the broadcast 32, is the scaled score; the select against the broadcast finite minimum is the masked
  score; the reduce by maximum over the last axis from minus infinity is the row's maximum; the select of the
  exponentials against the broadcast zero, the sum over the last axis from zero, the select of one where that sum is
  zero, and the quotient are the row's exponentials, sum, divisor and weight. The second batched product is the
  context.
-/
import proofs.«408480_j80796924772504_1_alg».proof.Proof.Gen.ReferenceIdeal.Read
import proofs.«408480_j80796924772504_1_alg».proof.Proof.MaskedSoftmax
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx
open Cert.MaskedSoftmax

variable (x0 x1 x2 : (⟨S8x2048x1024, .f32⟩ : BufTy).Contents (Elt Ideal)) (x3 x4 : (⟨S8, .i32⟩ : BufTy).Contents (Elt Ideal))

/-- The row is below the batch's query length. -/
theorem row_bit (b : Fin 8) (r c : Fin 2048) :
    val_main_v15 (F := Ideal) x3 (ix3 b r c) = IntOp.cmpi .slt (BitVec.ofNat 32 r.val) (x3 (ix1 b)) := by
  rw [val_main_v15_apply, val_main_v8_apply, val_main_v6_apply, val_main_v4_apply, val_main_v3_apply, val_main_v7_apply,
    val_main_v5_apply]
  exact congrArg (IntOp.cmpi .slt (BitVec.ofNat 32 r.val)) (congrArg x3 (funext fun a => match a with | ⟨0, _⟩ => rfl))

/-- The column is below the batch's key length. -/
theorem col_bit (b : Fin 8) (r c : Fin 2048) :
    val_main_v16 (F := Ideal) x4 (ix3 b r c) = IntOp.cmpi .slt (BitVec.ofNat 32 c.val) (x4 (ix1 b)) := by
  rw [val_main_v16_apply, val_main_v14_apply, val_main_v12_apply, val_main_v10_apply, val_main_v9_apply, val_main_v13_apply,
    val_main_v11_apply]
  exact congrArg (IntOp.cmpi .slt (BitVec.ofNat 32 c.val)) (congrArg x4 (funext fun a => match a with | ⟨0, _⟩ => rfl))

/-- The column is not after the row. -/
theorem causal_bit (b : Fin 8) (r c : Fin 2048) :
    val_main_v25 (F := Ideal) (ix3 b r c) = IntOp.cmpi .sle (BitVec.ofNat 32 c.val) (BitVec.ofNat 32 r.val) := by
  rw [val_main_v25_apply, val_main_v24_apply, val_main_v22_apply, val_main_v19_apply, val_main_v18_apply, val_main_v23_apply,
    val_main_v21_apply, val_main_v20_apply]

/-- The mask is the visibility bit. -/
theorem mask_apply (b : Fin 8) (r c : Fin 2048) :
    val_main_v26 (F := Ideal) x3 x4 (ix3 b r c) = visible x3 x4 b r c := by
  rw [val_main_v26_apply, val_main_v17_apply, row_bit, col_bit, causal_bit]
  rfl

/-- The divided product is the scaled score. -/
theorem scaled_apply (b : Fin 8) (r c : Fin 2048) :
    val_main_v2 (F := Ideal) x0 x1 (ix3 b r c) = scaled x0 x1 b r c := by
  rw [val_main_v2_apply, val_main_v0_apply, val_main_v1_apply, val_main_cst_apply]
  unfold scaled score
  refine congrArg (Ideal.div · (Ideal.ofBits .f32 0x42000000#32)) (Finset.sum_congr rfl fun d _ => ?_)
  refine congr (congrArg _ (congrArg x0 ?_)) (congrArg x1 ?_) <;>
  · funext a
    match a with
    | ⟨0, _⟩ => rfl
    | ⟨1, _⟩ => rfl
    | ⟨2, _⟩ => rfl

/-- The masked score. -/
theorem logit_apply (b : Fin 8) (r c : Fin 2048) :
    val_main_v27 (F := Ideal) x0 x1 x3 x4 (ix3 b r c) = logit (visible x3 x4 b r) (scaled x0 x1 b r) c := by
  rw [val_main_v27_apply, mask_apply, scaled_apply, val_main_call0_v0_apply, val_main_cst_0_apply]
  rfl

/-- The row's maximum. -/
theorem rowMax_apply (b : Fin 8) (r : Fin 2048) :
    val_main_v28 (F := Ideal) x0 x1 x3 x4 (ix2 b r) = rowMax (visible x3 x4 b r) (scaled x0 x1 b r) := by
  unfold val_main_v28
  rw [Host.reduce_eq_fold_single FloatOps.maximumf _ _ reducesTo_S8x2048x2048_S8x2048_d2 (by decide) h_S_ (ix2 b r)]
  unfold rowMax
  show (Finset.univ : Finset (Fin 2048)).fold max (Ideal.ofBits .f32 0xFF800000#32) _ = _
  refine Finset.fold_congr fun c _ => ?_
  rw [← logit_apply x0 x1 x3 x4 b r c]
  refine congrArg (val_main_v27 (F := Ideal) x0 x1 x3 x4) (funext fun a => Fin.ext ?_)
  match a with
  | ⟨0, _⟩ => rfl
  | ⟨1, _⟩ => rfl
  | ⟨2, _⟩ => rfl

/-- The maximum broadcast back over the row. -/
theorem rowMax_bcast_apply (b : Fin 8) (r c : Fin 2048) :
    val_main_v30 (F := Ideal) x0 x1 x3 x4 (ix3 b r c) = rowMax (visible x3 x4 b r) (scaled x0 x1 b r) := by
  rw [val_main_v30_apply, val_main_v29_apply, ← rowMax_apply x0 x1 x3 x4 b r]
  exact congrArg (val_main_v28 (F := Ideal) x0 x1 x3 x4) (funext fun a => match a with | ⟨0, _⟩ => rfl | ⟨1, _⟩ => rfl)

/-- The exponentials. -/
theorem expo_apply (b : Fin 8) (r c : Fin 2048) :
    val_main_v33 (F := Ideal) x0 x1 x3 x4 (ix3 b r c) = expo (visible x3 x4 b r) (scaled x0 x1 b r) c := by
  rw [val_main_v33_apply, mask_apply, val_main_v32_apply, val_main_v31_apply, logit_apply, rowMax_bcast_apply,
    val_main_call1_v0_apply, val_main_cst_2_apply]
  rfl

/-- The row's sum. -/
theorem denom_apply (b : Fin 8) (r : Fin 2048) :
    val_main_v34 (F := Ideal) x0 x1 x3 x4 (ix2 b r) = denom (visible x3 x4 b r) (scaled x0 x1 b r) := by
  rw [val_main_v34_apply, val_main_cst_3_apply]
  unfold denom
  rw [show (FloatOps.ofBits (F := Ideal) .f32 0x00000000#32 : EReal) = 0 from Ideal.ofBits_zero_f32, zero_add]
  refine Finset.sum_congr rfl fun c _ => ?_
  rw [← expo_apply x0 x1 x3 x4 b r c]
  refine congrArg (val_main_v33 (F := Ideal) x0 x1 x3 x4) (funext fun a => ?_)
  match a with
  | ⟨0, _⟩ => rfl
  | ⟨1, _⟩ => rfl
  | ⟨2, _⟩ => rfl

/-- The sum kept as a column. -/
theorem denom_col_apply (b : Fin 8) (r : Fin 2048) (u : Fin 1) :
    val_main_v35 (F := Ideal) x0 x1 x3 x4 (ix3 b r u) = denom (visible x3 x4 b r) (scaled x0 x1 b r) := by
  rw [val_main_v35_apply, ← denom_apply x0 x1 x3 x4 b r]
  exact congrArg (val_main_v34 (F := Ideal) x0 x1 x3 x4) (funext fun a => match a with | ⟨0, _⟩ => rfl | ⟨1, _⟩ => rfl)

/-- The divisor. -/
theorem safeDenom_apply (b : Fin 8) (r : Fin 2048) (u : Fin 1) :
    val_main_v38 (F := Ideal) x0 x1 x3 x4 (ix3 b r u) = safeDenom (visible x3 x4 b r) (scaled x0 x1 b r) := by
  rw [val_main_v38_apply, val_main_v37_apply, denom_col_apply, val_main_v36_apply, val_main_cst_4_apply,
    val_main_call2_v0_apply, val_main_cst_5_apply]
  rfl

/-- THE WEIGHTS: the reference's second result is the weights of the definitions. -/
theorem weights_eq : val_main_v40 (F := Ideal) x0 x1 x3 x4 = weights x0 x1 x3 x4 := by
  funext i
  obtain ⟨b, r, c, rfl⟩ : ∃ (b : Fin 8) (r c : Fin 2048), i = ix3 b r c := ⟨i 0, i 1, i 2, eq_ix3 i⟩
  rw [val_main_v40_apply, expo_apply, val_main_v39_apply]
  unfold weights weight
  refine congrArg (Ideal.div _) ?_
  rw [← safeDenom_apply x0 x1 x3 x4 b r (0 : Fin 1)]
  refine congrArg (val_main_v38 (F := Ideal) x0 x1 x3 x4) (funext fun a => ?_)
  match a with
  | ⟨0, _⟩ => rfl
  | ⟨1, _⟩ => rfl
  | ⟨2, _⟩ => rfl

/-- THE CONTEXT: the reference's first result is the context of the definitions. -/
theorem context_eq : val_main_v41 (F := Ideal) x0 x1 x2 x3 x4 = context x0 x1 x2 x3 x4 := by
  funext i
  obtain ⟨b, r, j, rfl⟩ : ∃ (b : Fin 8) (r : Fin 2048) (j : Fin 1024), i = ix3 b r j := ⟨i 0, i 1, i 2, eq_ix3 i⟩
  rw [val_main_v41_apply, weights_eq]
  unfold context
  refine Finset.sum_congr rfl fun c _ => ?_
  refine congr (congrArg _ (congrArg (weights x0 x1 x3 x4) ?_)) (congrArg x2 ?_) <;>
  · funext a
    match a with
    | ⟨0, _⟩ => rfl
    | ⟨1, _⟩ => rfl
    | ⟨2, _⟩ => rfl

end Cert.ReferenceIdeal.Rows

end
-- ==== Proof.lean ====
/-
  Scaled, masked dot-product attention over [8, 2048, 1024] queries, keys and values with per-batch query and key
  lengths: a kernel that computes, per batch and per tile of 256 query rows, the whole row of 2048 scores, their masked
  softmax and the product with the values, against the plain formulation over whole arrays.

  Over the extended reals both compute one function of the five arrays (Proof/MaskedSoftmax.lean): the score of row r
  and column c is the inner product of the query and key rows divided by 32; an invisible score (row beyond the query
  length, column beyond the key length, or column after the row) is replaced by the most negative finite f32; the
  weights are the exponentials of the visible scores' distances below the row maximum, divided by their sum, or by one
  when no column is visible; the context is the weights times the values. The kernel narrows its float inputs to bf16
  and its weights too before the second product, which changes no extended real; it multiplies by the word of 1/32
  where the reference divides by the word of 32, which is the same on every extended real; a matrix product on the
  kernel's side and a batched one on the reference's read as the same sums. No step needs the inputs to be finite.

  The kernel's value is read off its generated frame run: what each grid point leaves in its two output blocks
  (Proof/KernelIdealBlocks.lean), that arithmetic entry by entry (Proof/SoftmaxTile.lean, Proof/KernelPayload.lean), and
  the 64 blocks assembled into the two arrays (Proof/KernelValue.lean). The reference's value is its generated run read
  stage by stage (Proof/ReferenceRows.lean). The index maps read no table, so the frames' side condition is empty, and
  the ideal pass rewrote nothing.
-/
import proofs.«408480_j80796924772504_1_alg».proof.Defs
import proofs.«408480_j80796924772504_1_alg».proof.Proof.Gen.Kernel
import proofs.«408480_j80796924772504_1_alg».proof.Proof.Gen.Kernel.Skeleton
import proofs.«408480_j80796924772504_1_alg».proof.Proof.Gen.Kernel.Launch
import proofs.«408480_j80796924772504_1_alg».proof.Proof.Gen.Kernel.Points
import proofs.«408480_j80796924772504_1_alg».proof.Proof.Gen.Kernel.Frame
import proofs.«408480_j80796924772504_1_alg».proof.Proof.Gen.KernelIdeal
import proofs.«408480_j80796924772504_1_alg».proof.Proof.Gen.KernelIdeal.Skeleton
import proofs.«408480_j80796924772504_1_alg».proof.Proof.Gen.KernelIdeal.Launch
import proofs.«408480_j80796924772504_1_alg».proof.Proof.Gen.KernelIdeal.Points
import proofs.«408480_j80796924772504_1_alg».proof.Proof.Gen.KernelIdeal.Frame
import proofs.«408480_j80796924772504_1_alg».proof.Proof.Gen.ReferenceIdeal
import proofs.«408480_j80796924772504_1_alg».proof.Proof.Gen.Pre_finite_inputs
import proofs.«408480_j80796924772504_1_alg».proof.Proof.Gen.ReferenceIdeal.Run
import proofs.«408480_j80796924772504_1_alg».proof.Proof.Gen.ReferenceIdeal.Read
import proofs.«408480_j80796924772504_1_alg».proof.Proof.KernelValue
import proofs.«408480_j80796924772504_1_alg».proof.Proof.ReferenceRows
import Idealize.ShloMosaic.Adequacy
import Idealize.ShloMosaic.Init

noncomputable section

namespace Cert.Proof

open Idealize.ShloMosaic Idealize.SL.Sem

/-- The word-level kernel runs and leaves its arguments alone: its generated frame, whose side condition on the
    tables is empty. -/
theorem frame_kernel : Cert.frame_Kernel := fun m ρ _ => Cert.Kernel.Gen.frame m ρ trivial

/-- The idealized kernel likewise. -/
theorem frame_kernelIdeal : Cert.frame_KernelIdeal := fun m ρ _ => Cert.KernelIdeal.Gen.frame m ρ trivial

/-- The reference runs and leaves its arguments alone: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the context and the weights of the definitions, of arguments that agree. -/
theorem algebraic : Cert.algebraic_KernelIdeal_ReferenceIdeal := by
  intro m ρ m' ρ' _ hagree
  refine ⟨fun c => Cert.MaskedSoftmax.context (Cert.KernelIdeal.Attention.argQ m c) (Cert.KernelIdeal.Attention.argK m c)
      (Cert.KernelIdeal.Attention.argV m c) (Cert.KernelIdeal.Attention.argQl m c) (Cert.KernelIdeal.Attention.argKl m c),
    fun c => Cert.MaskedSoftmax.weights (Cert.KernelIdeal.Attention.argQ m c) (Cert.KernelIdeal.Attention.argK m c)
      (Cert.KernelIdeal.Attention.argQl m c) (Cert.KernelIdeal.Attention.argKl m c),
    Cert.KernelIdeal.Attention.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v41_eq, Cert.ReferenceIdeal.Rows.context_eq, (hagree c).1, (hagree c).2.1,
      (hagree c).2.2.1, (hagree c).2.2.2.1, (hagree c).2.2.2.2]
  · rw [Cert.ReferenceIdeal.Read.val_main_v40_eq, Cert.ReferenceIdeal.Rows.weights_eq, (hagree c).1, (hagree c).2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
